-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S4096x1024 : Shape := ⟨2, ![4096, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S16384x1024 .f32) (main_arg1 : FVec F S4096x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S16384x1024 : Shape := ⟨2, ![16384, 1024]⟩
abbrev S4096x1024 : Shape := ⟨2, ![4096, 1024]⟩
abbrev S16384x4096 : Shape := ⟨2, ![16384, 4096]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1024x1 : Shape := ⟨2, ![1024, 1]⟩
abbrev S512 : Shape := ⟨1, ![512]⟩
abbrev S512x1 : Shape := ⟨2, ![512, 1]⟩
abbrev S1x512 : Shape := ⟨2, ![1, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x512, .f32⟩
  | .local _ .vmem, ⟨5, _⟩ => ⟨S1024x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x1024_S1024x1024_0_0 : ∀ a, (![0, 0] : Fin 2 → Nat) a + S1024x1024.size a ≤ S1024x1024.size a
  h_S1024x1024 : 0 < S1024x1024.numel
  inb_S512x1024_S512x1024_0_0 : ∀ a, (![0, 0] : Fin 2 → Nat) a + S512x1024.size a ≤ S512x1024.size a
  h_S512x1024 : 0 < S512x1024.numel
  reduces_S1024x1024_S1024 : S1024x1024.Reduces [1] S1024
  shapeCasts_S1024_S1024x1 : S1024.ShapeCasts S1024x1
  reduces_S512x1024_S512 : S512x1024.Reduces [1] S512
  shapeCasts_S512_S512x1 : S512.ShapeCasts S512x1
  transposes_S512x1_p1_0_S1x512 : S512x1.Transposes [1, 0] S1x512
  bitsLt_bf16_f32 : FTy.bits .bf16 < FTy.bits .f32
  broadcasts_S1024x1_S1024x512 : S1024x1.Broadcasts S1024x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S16384x4096.size a
  hwx0_2 : ∀ i : grid0.Coords, EltTy.bits .f32 = 32 ∨ (Rect.block (s := S16384x4096) S1024x512.size (cc0_transform_2 i) (hinb0_2 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S4096 : Shape := ⟨1, ![4096]⟩
abbrev S16384x4096 : Shape := ⟨2, ![16384, 4096]⟩
abbrev S1x4096 : Shape := ⟨2, ![1, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4096x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S16384x4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S4096x1024_S4096_d1 : S4096x1024.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x1024_S4096x1024_S16384x4096_1_1_0_0_n_n_wf : DotDims.WF S16384x1024 S4096x1024 S16384x4096 [1] [1] [0] [0] [] []

variable [Facts₀]

def dot_S16384x1024_S4096x1024_S16384x4096_1_1_0_0_n_n : DotDims S16384x1024 S4096x1024 S16384x4096 where
  lhsContracting := [1]
  rhsContracting := [1]
  lhsNonContracting := [0]
  rhsNonContracting := [0]
  lhsBatch := []
  rhsBatch := []
  wf := dot_S16384x1024_S4096x1024_S16384x4096_1_1_0_0_n_n_wf

class Facts : Prop extends Facts₀ where

variable [Facts]
-- ==== Proof.SqDist.lean ====
/-
  The clamped squared Euclidean distance table, as a function of two arrays of rows.

  For rows u, v of K extended reals, `ofRows u v` is  max (Σₖ uₖ² + Σₖ vₖ² − 2 · Σₖ uₖ vₖ) 0,  the constants `2` and `0`
  kept as the extended reals their single-precision words encode.  `table x c` is the array whose (r, n) entry is
  `ofRows` of row r of x and row n of c.  The table only ever looks at one row of each array, so a block of the table
  is the table of the corresponding blocks of rows (`table_of_rows`).
-/
import Idealize.ShloMosaic.PureOps.Ideal
import Idealize.ShloMosaic.Lib.ValueIdx

noncomputable section

open scoped BigOperators

namespace Cert.SqDist

open Idealize.ShloMosaic Idealize.ShloMosaic.ValueIdx

/-- Row `r` of an `[R, K]` array. -/
def row {R K : ℕ} (a : (⟨2, ![R, K]⟩ : Shape).Idx → EReal) (r : Fin R) : Fin K → EReal := fun k => a (ix2 r k)

/-- max (‖u‖² + ‖v‖² − 2 ⟨u, v⟩) 0 for two rows of extended reals. -/
def ofRows {K : ℕ} (u v : Fin K → EReal) : EReal :=
  max ((∑ k, u k * u k) + (∑ k, v k * v k) - Ideal.ofBits .f32 0x40000000#32 * ∑ k, u k * v k)
    (Ideal.ofBits .f32 0x00000000#32)

/-- The whole table: entry (r, n) from row r of `x` and row n of `c`. -/
def table {R N K : ℕ} (x : (⟨2, ![R, K]⟩ : Shape).Idx → EReal) (c : (⟨2, ![N, K]⟩ : Shape).Idx → EReal) :
    (⟨2, ![R, N]⟩ : Shape).Idx → EReal :=
  fun i => ofRows (row x (i 0)) (row c (i 1))

theorem table_apply {R N K : ℕ} (x : (⟨2, ![R, K]⟩ : Shape).Idx → EReal) (c : (⟨2, ![N, K]⟩ : Shape).Idx → EReal)
    (r : Fin R) (n : Fin N) : table x c (ix2 r n) = ofRows (row x r) (row c n) := rfl

/-- An entry of the table depends on one row of each array only: if row `j 0` of `x'` is row `i 0` of `x` and row `j 1`
    of `c'` is row `i 1` of `c`, the table of `x'`, `c'` at `j` is the table of `x`, `c` at `i`. -/
theorem table_of_rows {R N K R' N' : ℕ} (x : (⟨2, ![R, K]⟩ : Shape).Idx → EReal) (c : (⟨2, ![N, K]⟩ : Shape).Idx → EReal)
    (x' : (⟨2, ![R', K]⟩ : Shape).Idx → EReal) (c' : (⟨2, ![N', K]⟩ : Shape).Idx → EReal)
    (j : (⟨2, ![R', N']⟩ : Shape).Idx) (i : (⟨2, ![R, N]⟩ : Shape).Idx)
    (hx : row x' (j 0) = row x (i 0)) (hc : row c' (j 1) = row c (i 1)) :
    table x' c' j = table x c i := by
  show ofRows (row x' (j 0)) (row c' (j 1)) = ofRows (row x (i 0)) (row c (i 1))
  rw [hx, hc]

end Cert.SqDist

end
-- ==== Proof.LibDotNT.lean ====
/-
  A general lemma for reading a kernel's matrix product at an index, at the ideal instance.

  * `matmul_nt_apply`: a matrix product of an [M, K] operand with an [N, K] operand, both contracted over their LAST
    axis (x · cᵀ), into a zero accumulator, read at (p, j), is the sum over k of lhs (p, k) · rhs (j, k) — for any
    record of dimension numbers whose four axis facts are given (the output's row from the left operand's axis 0, its
    column from the right operand's axis 0, the one contracted index on axis 1 of both operands).
-/
import Idealize.ShloMosaic.PureOps.Ideal.Laws
import Idealize.ShloMosaic.Lib.ValueIdx

noncomputable section

namespace Cert.LibDotNT

open Idealize.ShloMosaic Idealize.ShloMosaic.ValueIdx

/-- A matrix product contracted over the last axis of both operands, into the zero accumulator, read at (p, j):
    ∑ₖ lhs (p, k) · rhs (j, k). -/
theorem matmul_nt_apply {M K N : Nat} {φ₁ φ₂ : FTy} (d : DotDims ⟨2, ![M, K]⟩ ⟨2, ![N, K]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (i 1).val) (hr1 : ∀ i q, (d.rhsIdx i q 1).val = (q ⟨0, by omega⟩).val)
    (prec : Option ContractPrecision) (lhs : FVec Ideal ⟨2, ![M, K]⟩ φ₁) (rhs : FVec Ideal ⟨2, ![N, K]⟩ φ₂)
    (p : Fin M) (j : Fin N) :
    FloatOps.matmul d prec lhs rhs (constant ⟨2, ![M, N]⟩ .f32 0x00000000#32) (ix2 p j)
      = ∑ k : Fin K, lhs (ix2 p k) * rhs (ix2 j k) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 j k := funext fun a => Fin.ext (by
    match a with
    | ⟨0, _⟩ => exact hr0 _ _
    | ⟨1, _⟩ => exact (hr1 _ _).trans hk)
  rw [el, er]

end Cert.LibDotNT

end
-- ==== Proof.LibPlainDot.lean ====
/-
  General lemmas for reading a kernel's vector operations at an index, at the ideal instance.

  * `matmul_plain_apply`: a matrix product of an [M, K] operand with a [K, N] operand into a zero accumulator, read at
    (p, j), is the sum over k of lhs (p, k) · rhs (k, j), for any record of dimension numbers whose four axis facts are
    given (row of the output from the left operand's axis 0, column from the right operand's axis 1, the one contracted
    index on the left's axis 1 and the right's axis 0).
  * `shapeCast_a_a1_apply`: an [a] vector recast as an [a, 1] column reads, at (p, u), the vector at p.
  * `broadcastTo_a1_ab_apply`: an [a, 1] column broadcast to [a, b] reads, at (p, c), the column at (p, 0).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib

open Idealize.ShloMosaic Idealize.ShloMosaic.ValueIdx

/-- A plain two-operand matrix product into the zero accumulator, read at (p, j): ∑ₖ lhs (p, k) · rhs (k, j). -/
theorem matmul_plain_apply {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![M, K]⟩ φ₁) (rhs : FVec Ideal ⟨2, ![K, N]⟩ φ₂)
    (p : Fin M) (j : Fin N) :
    FloatOps.matmul d prec lhs rhs (constant ⟨2, ![M, N]⟩ .f32 0x00000000#32) (ix2 p j)
      = ∑ k : Fin K, lhs (ix2 p k) * rhs (ix2 k j) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowSum.lean ====
/-
  A general lemma for reading a kernel's lane reduction at an index, at the ideal instance.

  * `multiReduction_add_rows_apply`: the sum of an [R, K] single-precision vector along its last axis, accumulated
    from the zero word, read at row r, is the sum over k of the vector at (r, k).
-/
import Idealize.ShloMosaic.PureOps.Ideal.Laws
import Idealize.ShloMosaic.Lib.ValueIdx

noncomputable section

namespace Cert.LibRowSum

open Idealize.ShloMosaic Idealize.ShloMosaic.ValueIdx

/-- A row-wise add reduction of an [R, K] vector read at row r: ∑ₖ v (r, k). -/
theorem multiReduction_add_rows_apply {R K : ℕ} (v : FVec Ideal ⟨2, ![R, K]⟩ .f32)
    (h : (⟨2, ![R, K]⟩ : Shape).Reduces [1] ⟨1, ![R]⟩) (hφ : FKind.Formats .f32)
    (hacc : (0x00000000#32 : BitVec 32) = FKind.add.neutral .f32 hφ) (r : Fin R) :
    multiReduction .add [1] ⟨1, ![R]⟩ v 0x00000000#32 h hφ hacc (ix1 r) = ∑ k : Fin K, v (ix2 r k) := by
  refine (Ideal.multiReduction_add_single v _ h hφ hacc (ix1 r)).trans ?_
  refine Finset.sum_congr rfl fun k _ => ?_
  exact congrArg v (funext fun a => Fin.ext (by match a with | ⟨0, _⟩ => rfl | ⟨1, _⟩ => rfl))

end Cert.LibRowSum

end
-- ==== Proof.Payload.lean ====
/-
  The kernel body's one stored value, read at an entry.

  On a block of 1024 rows of x and a block of 512 rows of c (both with all 1024 columns) the body stores the
  1024 × 512 block whose (p, q) entry is  max (‖x_p‖² + ‖c_q‖² − 2 ⟨x_p, c_q⟩) 0 :
  the squared norms are lane sums of the squared blocks (the one for c turned from a column into a row before it is
  spread over the rows), and the inner products are one matrix product contracting the last axis of both blocks,
  whose operands were narrowed to half-width floats first — no change on extended reals.
-/
import proofs.«114908_j52424370815597_1_alg».proof.Proof.Gen.KernelIdeal.Skeleton
import proofs.«114908_j52424370815597_1_alg».proof.Proof.SqDist
import proofs.«114908_j52424370815597_1_alg».proof.Proof.LibDotNT
import proofs.«114908_j52424370815597_1_alg».proof.Proof.LibPlainDot
import proofs.«114908_j52424370815597_1_alg».proof.Proof.LibRowSum
import Idealize.ShloMosaic.Lib.ValueLayout

noncomputable section

namespace Cert.KernelIdeal.Body

open Cert.KernelIdeal Cert.KernelIdeal.Gen Idealize.ShloMosaic Idealize.ShloMosaic.ValueIdx
open Cert.SqDist

/-! ## The matrix product's operand indices, axis by axis -/

theorem lhs_dot_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_dot_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_dot_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_dot_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-! ## The three ingredients at an entry (p, q) -/

/-- The inner products: the matrix product of the two narrowed blocks, contracted over the columns of both, at (p, q)
    is ⟨x_p, c_q⟩. -/
theorem cross_apply (x0 : Vec Ideal S1024x1024 .f32) (x1 : Vec Ideal S512x1024 .f32) (h : FTy.bits .bf16 < FTy.bits .f32)
    (p : Fin 1024) (q : Fin 512) :
    matmul (F := Ideal) dot_S1024x1024_S512x1024_S1024x512_1_1_0_0_n_n none (truncf .bf16 x0 h) (truncf .bf16 x1 h) (constant S1024x512 .f32 0x00000000#32) (ix2 p q)
      = ∑ k : Fin 1024, row x0 p k * row x1 q k :=
  Cert.LibDotNT.matmul_nt_apply dot_S1024x1024_S512x1024_S1024x512_1_1_0_0_n_n rfl rfl lhs_dot_0 lhs_dot_1 rhs_dot_0 rhs_dot_1 none
    (truncf .bf16 x0 h) (truncf .bf16 x1 h) p q

/-- ‖x_p‖², spread along the row: the lane sum of the squared block, as a column, repeated over the 512 columns. -/
theorem xsq_apply (x0 : Vec Ideal S1024x1024 .f32) (hr : S1024x1024.Reduces [1] S1024) (hφ : FKind.Formats .f32)
    (hacc : (0x00000000#32 : BitVec 32) = 0x00000000#32) (hc : S1024.ShapeCasts S1024x1)
    (hb : S1024x1.Broadcasts S1024x512) (p : Fin 1024) (q : Fin 512) :
    broadcastTo S1024x512 (shapeCast S1024x1 (multiReduction (F := Ideal) .add [1] S1024 (mulf x0 x0) 0x00000000#32 hr hφ hacc) hc) hb (ix2 p q)
      = ∑ k : Fin 1024, row x0 p k * row x0 p k := by
  rw [Cert.Lib.broadcastTo_a1_ab_apply, Cert.Lib.shapeCast_a_a1_apply]
  exact Cert.LibRowSum.multiReduction_add_rows_apply (mulf x0 x0) hr hφ hacc p

/-- ‖c_q‖², spread down the column: the lane sum of the squared block, as a column, turned into a row, repeated over
    the 1024 rows. -/
theorem csq_apply (x1 : Vec Ideal S512x1024 .f32) (hr : S512x1024.Reduces [1] S512) (hφ : FKind.Formats .f32)
    (hacc : (0x00000000#32 : BitVec 32) = 0x00000000#32) (hc : S512.ShapeCasts S512x1)
    (ht : S512x1.Transposes [1, 0] S1x512) (hb : S1x512.Broadcasts S1024x512) (p : Fin 1024) (q : Fin 512) :
    broadcastTo S1024x512 (transpose S1x512 [1, 0] (shapeCast S512x1 (multiReduction (F := Ideal) .add [1] S512 (mulf x1 x1) 0x00000000#32 hr hφ hacc) hc) ht) hb (ix2 p q)
      = ∑ k : Fin 1024, row x1 q k * row x1 q k := by
  rw [broadcastTo_1b_ab_apply, transpose_ix2_apply, Cert.Lib.shapeCast_a_a1_apply]
  exact Cert.LibRowSum.multiReduction_add_rows_apply (mulf x1 x1) hr hφ hacc q

/-! ## The stored value -/

/-- The body's stored block at (p, q) is the clamped squared distance of row p of the x block and row q of the c
    block. -/
theorem pay_apply (x0 : Vec Ideal S1024x1024 .f32) (x1 : Vec Ideal S512x1024 .f32) (p : Fin 1024) (q : Fin 512) :
    k0_pay1 (F := Ideal) x0 x1 (ix2 p q) = ofRows (row x0 p) (row x1 q) := by
  unfold k0_pay1 ofRows
  simp only [maximumf_apply, subf_apply, addf_apply, mulf_apply, broadcast_apply, cross_apply]
  refine congrArg₂ max (congrArg₂ (· - ·) (congrArg₂ (· + ·) ?_ ?_) rfl) rfl
  · exact xsq_apply x0 _ _ _ _ _ p q
  · exact csq_apply x1 _ _ _ _ _ _ p q

/-- So the stored block is the table of the two blocks of rows. -/
theorem pay_eq_table (x0 : Vec Ideal S1024x1024 .f32) (x1 : Vec Ideal S512x1024 .f32) :
    k0_pay1 (F := Ideal) x0 x1 = table x0 x1 := by
  funext j
  obtain ⟨p, q, rfl⟩ : ∃ (p : Fin 1024) (q : Fin 512), j = ix2 p q := ⟨j 0, j 1, eq_ix2 j⟩
  exact pay_apply x0 x1 p q

end Cert.KernelIdeal.Body

end
-- ==== Proof.Blocks.lean ====
/-
  From the blocks the grid points write back to the whole result array.

  The grid has 16 × 8 points; point (i, j) reads rows 1024·i … 1024·i + 1023 of x and rows 512·j … 512·j + 511 of c
  (all 1024 columns of each) and writes back the 1024 × 512 block (i, j) of the result.  The body's block is the
  distance table of the two blocks of rows, and an entry of the table looks only at one row of each array, so what point
  (i, j) writes back is block (i, j) of the distance table of the WHOLE arrays.  The 128 blocks tile the
  16384 × 4096 result — the entry (r, n) lies in block (r / 1024, n / 512) — so after the run the result array is that table.
-/
import proofs.«114908_j52424370815597_1_alg».proof.Proof.Gen.KernelIdeal.Value
import proofs.«114908_j52424370815597_1_alg».proof.Proof.Payload

set_option maxRecDepth 16384

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx
open Cert.SqDist

variable (m : (ℓ : Loc nD τ sig) → Buf (Elt Ideal) ℓ) (ρ : Dev nD → PrngReg)

/-- The distance table of the two whole argument arrays, typed as the result array. -/
abbrev dist (a0 : S16384x1024.Idx → Elt Ideal .f32) (a1 : S4096x1024.Idx → Elt Ideal .f32) : S16384x4096.Idx → Elt Ideal .f32 :=
  table a0 a1

theorem origin_eq : (![0, 0] : Fin 2 → Nat) = fun _ => 0 := funext fun a => by fin_cases a <;> rfl

/-- The index maps over the grid: the x window follows the result's block row and stays at column block 0, the c
    window follows the result's block column and stays at column block 0; the result's block indices fill 16 × 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 15 ∧ win0_2.index t (1 : Fin 2) ≤ 7 :=
  (by decide +kernel : ∀ t : Fin grid0.N, _)

/-- Every block of the result is some point's. -/
theorem idx_onto : ∀ (q0 : Fin 16) (q1 : Fin 8), ∃ t : Fin cfg0.N, win0_2.index t = ![q0.val, q1.val] :=
  (by decide +kernel : ∀ (q0 : Fin 16) (q1 : Fin 8), ∃ t : Fin grid0.N, win0_2.index t = ![q0.val, q1.val])

/-- WHAT POINT `t` WRITES BACK is block `t` of the distance table of the argument arrays as the region finds them. -/
theorem flushed_eq (c : Dev nD) (t : Fin cfg0.N) :
    (dats m 0 c).flushed 2 t = ((cfg0.win 2).blk t).view.read (Elt Ideal) (dist (V m c main_arg0) (V m c main_arg1)) := by
  rw [Cert.KernelIdeal.Value.flushed2]
  unfold out0_2
  rw [View.canon_unit_zero origin_eq]
  simp only [View.ld_unit_zero (S := S1024x1024) origin_eq, View.ld_unit_zero (S := S512x1024) origin_eq]
  rw [Cert.KernelIdeal.Body.pay_eq_table]
  obtain ⟨e0, e1, e2, e3, -, -⟩ := idx_facts t
  funext j
  show table (fun y => V m c main_arg0 (((cfg0.win 0).blk t).view.emb y)) (fun y => V m c main_arg1 (((cfg0.win 1).blk t).view.emb y)) j
    = table (V m c main_arg0) (V m c main_arg1) (((cfg0.win 2).blk t).view.emb j)
  refine table_of_rows _ _ _ _ j _ ?_ ?_
  · funext k
    show V m c main_arg0 (((cfg0.win 0).blk t).view.emb (ix2 (j 0) k)) = V m c main_arg0 (ix2 ((((cfg0.win 2).blk t).view.emb j) 0) k)
    refine congrArg (V m c main_arg0) (funext fun a => Fin.ext ?_)
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 1024 + 1 * k.val = k.val; omega
  · funext k
    show V m c main_arg1 (((cfg0.win 1).blk t).view.emb (ix2 (j 1) k)) = V m c main_arg1 (ix2 ((((cfg0.win 2).blk t).view.emb j) 1) k)
    refine congrArg (V m c main_arg1) (funext fun a => Fin.ext ?_)
    match a with
    | ⟨0, _⟩ => show win0_1.index t (0 : Fin 2) * 512 + 1 * (j 1).val = win0_2.index t (1 : Fin 2) * 512 + 1 * (j 1).val; omega
    | ⟨1, _⟩ => show win0_1.index t (1 : Fin 2) * 1024 + 1 * k.val = k.val; omega

/-- An index of the array is in point `t`'s block iff each coordinate is in the block's range on its axis. -/
theorem mem_blk (t : Fin cfg0.N) (i : S16384x4096.Idx) :
    i ∈ ((cfg0.win 2).blk t).view.set ↔ ∀ a : Fin 2, win0_2.index t a * S1024x512.size a ≤ (i a).val ∧ (i a).val < win0_2.index t a * S1024x512.size a + S1024x512.size a := by
  show i ∈ ((View.whole main_v0).slice (win0_2.rect t)).set ↔ _
  rw [View.set_slice_whole, Rect.mem_set_unit]
  exact Iff.rfl

/-- THE BLOCKS TILE THE RESULT: entry (r, n) lies in the block of the point with block indices (r / 1024, n / 512). -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  obtain ⟨t, ht⟩ := idx_onto ⟨(i 0).val / 1024, by omega⟩ ⟨(i 1).val / 512, by omega⟩
  have q0 : win0_2.index t (0 : Fin 2) = (i 0).val / 1024 := congrFun ht 0
  have q1 : win0_2.index t (1 : Fin 2) = (i 1).val / 512 := congrFun ht 1
  refine ⟨t, flush0_2 t, ?_⟩
  rw [mem_blk]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 512 ≤ (i 1).val ∧ (i 1).val < win0_2.index t (1 : Fin 2) * 512 + 512; omega

/-- THE RESULT ARRAY after the run is the distance table of the argument arrays. -/
theorem final (c : Dev nD) :
    (dats m 0 c).arrAt 2 cfg0.N = dist (m ((c : Thread nD τ).loc main_arg0)) (m ((c : Thread nD τ).loc main_arg1)) :=
  (dats m 0 c).arrAt_eq_of_cover 2 (dist (V m c main_arg0) (V m c main_arg1)) (fun t _ => flushed_eq m c t) cover

/-- The kernel's run re-posted: the result at the distance table of the arguments, the arguments unchanged. -/
theorem run : θ_run defs (onTc (τ := τ) (main (F := Ideal))) ⟨m, fun _ => 0, ρ⟩ fun r => ∀ c : Dev nD,
      r.2.mem ((c : Thread nD τ).loc main_v0) = dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.Whole

end
-- ==== Proof.Reference.lean ====
/-
  The reference's result is the clamped squared-distance table.

  The host program squares both arrays, sums each along its columns (from the zero word), spreads ‖x_r‖² along row r and
  ‖c_n‖² down column n, subtracts twice the product x · cᵀ and clamps at zero.  Read at an entry (r, n), operation by
  operation, this is  max ((0 + Σₖ x(r,k)²) + (0 + Σₖ c(n,k)²) − 2 · Σₖ x(r,k) c(n,k)) 0 ;  the two leading zeros vanish.
-/
import proofs.«114908_j52424370815597_1_alg».proof.Proof.Gen.ReferenceIdeal.Read
import proofs.«114908_j52424370815597_1_alg».proof.Proof.SqDist

noncomputable section

namespace Cert.ReferenceIdeal.RefValue

open Cert.ReferenceIdeal Cert.ReferenceIdeal.Gen Cert.ReferenceIdeal.Read Idealize.ShloMosaic Idealize.ShloMosaic.ValueIdx
open Cert.SqDist

/-! ## Where each stage reads its operand, from the entry (r, n) -/

theorem xrow_idx (r : Fin 16384) (n : Fin 4096) (k : Fin 1024) :
    idx_main_v1 (idx_main_v2 (idx_main_v7 (ix2 r n))) k = ix2 r k :=
  funext fun a => Fin.ext (by match a with | ⟨0, _⟩ => rfl | ⟨1, _⟩ => rfl)

theorem crow_idx (r : Fin 16384) (n : Fin 4096) (k : Fin 1024) :
    idx_main_v4 (idx_main_v6 (idx_main_v8 (ix2 r n))) k = ix2 n k :=
  funext fun a => Fin.ext (by match a with | ⟨0, _⟩ => rfl | ⟨1, _⟩ => rfl)

theorem dot_lidx (r : Fin 16384) (n : Fin 4096) (k : Fin 1024) : lidx_main_v5 (ix2 r n) k = ix2 r k :=
  funext fun a => Fin.ext (by match a with | ⟨0, _⟩ => rfl | ⟨1, _⟩ => rfl)

theorem dot_ridx (r : Fin 16384) (n : Fin 4096) (k : Fin 1024) : ridx_main_v5 (ix2 r n) k = ix2 n k :=
  funext fun a => Fin.ext (by match a with | ⟨0, _⟩ => rfl | ⟨1, _⟩ => rfl)

/-! ## The last stage is the table -/

theorem ref_eq_table (x : (⟨S16384x1024, .f32⟩ : BufTy).Contents (Elt Ideal)) (c : (⟨S4096x1024, .f32⟩ : BufTy).Contents (Elt Ideal)) :
    val_main_v14 (F := Ideal) x c = table x c := by
  funext i
  obtain ⟨r, n, rfl⟩ : ∃ (r : Fin 16384) (n : Fin 4096), i = ix2 r n := ⟨i 0, i 1, eq_ix2 i⟩
  rw [val_main_v14_apply, val_main_v12_apply, val_main_v9_apply, val_main_v7_apply, val_main_v2_apply, val_main_v1_apply,
    val_main_v8_apply, val_main_v6_apply, val_main_v4_apply, val_main_v11_apply, val_main_v10_apply, val_main_v5_apply,
    val_main_v13_apply, table_apply]
  simp only [val_main_v0_apply, val_main_v3_apply, val_main_cst_apply, val_main_cst_0_apply, val_main_cst_1_apply,
    val_main_cst_2_apply, xrow_idx, crow_idx, dot_lidx, dot_ridx, Ideal.mulf_def, Ideal.addf_def, Ideal.subf_def,
    Ideal.maximumf_def, Ideal.ofBits_def, Ideal.ofBits_zero_f32, zero_add, ofRows, row]

end Cert.ReferenceIdeal.RefValue

end
-- ==== Proof.lean ====
/-
  The squared-distance kernel against its jnp reference, over the extended reals.

  Both programs compute, for x of 16384 rows and c of 4096 rows (1024 columns each), the 16384 × 4096 array whose
  (r, n) entry is  max (‖x_r‖² + ‖c_n‖² − 2 ⟨x_r, c_n⟩) 0.

  * The kernel works block by block on a 16 × 8 grid: a block of 1024 rows of x against a block of 512 rows of c.
    Its body's stored value, entry by entry, is that formula on the two blocks of rows (Proof/Payload.lean: two lane
    sums, a column turned into a row, two broadcasts, and one matrix product contracting the last axis of both
    operands — narrowed to half-width floats first, which changes nothing on extended reals), and the blocks tile the
    result (Proof/Blocks.lean), so the result array is the table of the whole arrays (Proof/SqDist.lean).
  * The reference computes the same formula on the whole arrays with host operations; read entry by entry it is the
    same table, its two sums starting from a zero that vanishes (Proof/Reference.lean).

  No algebraic law beyond `0 + a = a` joins the two sides — the sums have the same terms in the same grouping — so the
  finiteness of the inputs is never used.  The three frames are the generated ones (the reference's is its generated run
  with the result dropped); the idealization changed no operation, so there is nothing to preserve.
-/
import proofs.«114908_j52424370815597_1_alg».proof.Defs
import proofs.«114908_j52424370815597_1_alg».proof.Proof.Gen.Kernel
import proofs.«114908_j52424370815597_1_alg».proof.Proof.Gen.Kernel.Skeleton
import proofs.«114908_j52424370815597_1_alg».proof.Proof.Gen.Kernel.Launch
import proofs.«114908_j52424370815597_1_alg».proof.Proof.Gen.Kernel.Points
import proofs.«114908_j52424370815597_1_alg».proof.Proof.Gen.Kernel.Frame
import proofs.«114908_j52424370815597_1_alg».proof.Proof.Gen.KernelIdeal
import proofs.«114908_j52424370815597_1_alg».proof.Proof.Gen.KernelIdeal.Skeleton
import proofs.«114908_j52424370815597_1_alg».proof.Proof.Gen.KernelIdeal.Launch
import proofs.«114908_j52424370815597_1_alg».proof.Proof.Gen.KernelIdeal.Points
import proofs.«114908_j52424370815597_1_alg».proof.Proof.Gen.KernelIdeal.Frame
import proofs.«114908_j52424370815597_1_alg».proof.Proof.Gen.ReferenceIdeal
import proofs.«114908_j52424370815597_1_alg».proof.Proof.Gen.Pre_finite_inputs
import proofs.«114908_j52424370815597_1_alg».proof.Proof.Gen.KernelIdeal.Value
import proofs.«114908_j52424370815597_1_alg».proof.Proof.Gen.ReferenceIdeal.Run
import proofs.«114908_j52424370815597_1_alg».proof.Proof.Gen.ReferenceIdeal.Read
import proofs.«114908_j52424370815597_1_alg».proof.Proof.Blocks
import proofs.«114908_j52424370815597_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and its arguments are never written. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on x and c, both programs end with the clamped squared-distance table of x and c. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq_table, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
